-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x32x32 : Shape := ⟨3, ![8192, 32, 32]⟩
abbrev S4096 : Shape := ⟨1, ![4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x32x32 : S_.BroadcastsInDim S8192x32x32 (![] : Fin 0 → Fin S8192x32x32.rank)
  reducesTo_S8192x32x32_S_d0_1_2 : S8192x32x32.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S8192x32x32 .f32) (main_arg2 : FVec F S4096 .f32) (main_arg3 : IVec S8192 32) (main_arg4 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x32x32 .f32 := Host.absf main_arg1
  let main_cst_0 : FVec F S_ .f32 := constant S_ .f32 0x7F800000#32
  let main_v5 : FVec F S8192x32x32 .f32 := broadcastInDim S8192x32x32 ![] bcast_S_S8192x32x32 main_cst_0
  let main_v6 : IVec S8192x32x32 1 := cmpf .olt main_v4 main_v5
  let main_c_1 : IVec S_ 1 := constantI S_ 1 1#1
  let main_v7 : IVec S_ 1 := (fun x v => Host.reduce IntOp.andi x v reducesTo_S8192x32x32_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S8192x32x32 : Shape := ⟨3, ![8192, 32, 32]⟩
abbrev S4096 : Shape := ⟨1, ![4096]⟩
abbrev S8192 : Shape := ⟨1, ![8192]⟩
abbrev S_ : Shape := ⟨0, ![]⟩
abbrev S128x128x32x32 : Shape := ⟨4, ![128, 128, 32, 32]⟩
abbrev S8192x1 : Shape := ⟨2, ![8192, 1]⟩
abbrev S8192x2 : Shape := ⟨2, ![8192, 2]⟩
abbrev S128x32x128x32 : Shape := ⟨4, ![128, 32, 128, 32]⟩
abbrev S4096x4096 : Shape := ⟨2, ![4096, 4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 31
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x32x32, .f32⟩
  | .hbm, ⟨2, _⟩ => ⟨S4096, .f32⟩
  | .hbm, ⟨3, _⟩ => ⟨S8192, .i32⟩
  | .hbm, ⟨4, _⟩ => ⟨S8192, .i32⟩
  | .hbm, ⟨5, _⟩ => ⟨S_, .f32⟩
  | .hbm, ⟨6, _⟩ => ⟨S128x128x32x32, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x1, .i32⟩
  | .hbm, ⟨23, _⟩ => ⟨S8192x2, .i32⟩
  | .hbm, ⟨24, _⟩ => ⟨S128x128x32x32, .f32⟩
  | .hbm, ⟨25, _⟩ => ⟨S128x32x128x32, .f32⟩
  | .hbm, ⟨26, _⟩ => ⟨S4096x4096, .f32⟩
  | .hbm, ⟨27, _⟩ => ⟨S8192x4096, .bf16⟩
  | .hbm, ⟨28, _⟩ => ⟨S4096x4096, .bf16⟩
  | .hbm, ⟨29, _⟩ => ⟨S1x4096, .f32⟩
  | .hbm, ⟨30, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S128x128x32x32 : S_.BroadcastsInDim S128x128x32x32 (![] : Fin 0 → Fin S128x128x32x32.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  transposes_S128x128x32x32_S128x32x128x32_0_2_1_3 : S128x128x32x32.Transposes [0, 2, 1, 3] S128x32x128x32
  shapeCasts_S128x32x128x32_S4096x4096 : S128x32x128x32.ShapeCasts S4096x4096
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  scatter_S128x128x32x32_S8192x2_S8192x32x32_12_01_01_1_wf : ScatterDims.WF S128x128x32x32 S8192x2 S8192x32x32 [1, 2] [0, 1] [0, 1] 1
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def scatter_S128x128x32x32_S8192x2_S8192x32x32_12_01_01_1 : ScatterDims S128x128x32x32 S8192x2 S8192x32x32 where
  updateWindowDims := [1, 2]
  insertedWindowDims := [0, 1]
  scatterDimsToOperandDims := [0, 1]
  indexVectorDim := 1
  wf := scatter_S128x128x32x32_S8192x2_S8192x32x32_12_01_01_1_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v17) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x32x32 : Shape := ⟨3, ![8192, 32, 32]⟩
abbrev S4096 : Shape := ⟨1, ![4096]⟩
abbrev S8192 : Shape := ⟨1, ![8192]⟩
abbrev S_ : Shape := ⟨0, ![]⟩
abbrev S128x128x32x32 : Shape := ⟨4, ![128, 128, 32, 32]⟩
abbrev S8192x1 : Shape := ⟨2, ![8192, 1]⟩
abbrev S8192x2 : Shape := ⟨2, ![8192, 2]⟩
abbrev S128x32x128x32 : Shape := ⟨4, ![128, 32, 128, 32]⟩
abbrev S4096x4096 : Shape := ⟨2, ![4096, 4096]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x32x32, .f32⟩
  | .hbm, ⟨2, _⟩ => ⟨S4096, .f32⟩
  | .hbm, ⟨3, _⟩ => ⟨S8192, .i32⟩
  | .hbm, ⟨4, _⟩ => ⟨S8192, .i32⟩
  | .hbm, ⟨5, _⟩ => ⟨S_, .f32⟩
  | .hbm, ⟨6, _⟩ => ⟨S128x128x32x32, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x1, .i32⟩
  | .hbm, ⟨23, _⟩ => ⟨S8192x2, .i32⟩
  | .hbm, ⟨24, _⟩ => ⟨S128x128x32x32, .f32⟩
  | .hbm, ⟨25, _⟩ => ⟨S128x32x128x32, .f32⟩
  | .hbm, ⟨26, _⟩ => ⟨S4096x4096, .f32⟩
  | .hbm, ⟨27, _⟩ => ⟨S4096x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S128x128x32x32 : S_.BroadcastsInDim S128x128x32x32 (![] : Fin 0 → Fin S128x128x32x32.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  transposes_S128x128x32x32_S128x32x128x32_0_2_1_3 : S128x128x32x32.Transposes [0, 2, 1, 3] S128x32x128x32
  shapeCasts_S128x32x128x32_S4096x4096 : S128x32x128x32.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S128x128x32x32_S8192x2_S8192x32x32_12_01_01_1_wf : ScatterDims.WF S128x128x32x32 S8192x2 S8192x32x32 [1, 2] [0, 1] [0, 1] 1
  dot_S8192x4096_S4096x4096_S8192x4096_1_0_0_1_n_n_wf : DotDims.WF S8192x4096 S4096x4096 S8192x4096 [1] [0] [0] [1] [] []

variable [Facts₀]

def scatter_S128x128x32x32_S8192x2_S8192x32x32_12_01_01_1 : ScatterDims S128x128x32x32 S8192x2 S8192x32x32 where
  updateWindowDims := [1, 2]
  insertedWindowDims := [0, 1]
  scatterDimsToOperandDims := [0, 1]
  indexVectorDim := 1
  wf := scatter_S128x128x32x32_S8192x2_S8192x32x32_12_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Linear.lean ====
/-
  The function both programs compute, stated once over literal shapes: a dense linear layer
  `y[r, n] = (∑ k, x[r, k] · W[n, k]) + b[n]` on the extended reals — the product of the activations
  `x : [8192, 4096]` with the TRANSPOSE of the weight matrix `W : [4096 (out), 4096 (in)]`, plus a bias
  along the output features. How `W` is assembled from its 32 × 32 blocks is not opened anywhere: both
  programs build it by the same host operations, so it enters here as an arbitrary matrix.
-/
import Idealize.ShloMosaic.PureOps.Ideal
import Idealize.ShloMosaic.Lib.ValueIdx

noncomputable section

namespace Cert.BlockSparseLinear

open Idealize.ShloMosaic Idealize.ShloMosaic.ValueIdx

/-- `x · Wᵀ + b`: entry `(r, n)` is the sum over the input feature `k` of `x[r, k] · W[n, k]`, plus `b[n]`. -/
def linear (x : (⟨2, ![8192, 4096]⟩ : Shape).Idx → EReal) (W : (⟨2, ![4096, 4096]⟩ : Shape).Idx → EReal)
    (b : Fin 4096 → EReal) : (⟨2, ![8192, 4096]⟩ : Shape).Idx → EReal :=
  fun i => (∑ k : Fin 4096, x (ix2 (i 0) k) * W (ix2 (i 1) k)) + b (i 1)

/-- The layer at an entry named by its coordinates. -/
theorem linear_apply (x : (⟨2, ![8192, 4096]⟩ : Shape).Idx → EReal) (W : (⟨2, ![4096, 4096]⟩ : Shape).Idx → EReal)
    (b : Fin 4096 → EReal) (r : Fin 8192) (n : Fin 4096) :
    linear x W b (ix2 r n) = (∑ k : Fin 4096, x (ix2 r k) * W (ix2 n k)) + b n := rfl

end Cert.BlockSparseLinear

end
-- ==== Proof.RefLinear.lean ====
/-
  The reference's result is the linear layer. Its last stage adds the bias, broadcast along the rows, to a
  `dot_general` of the activations with the TRANSPOSED weight matrix, contracting the activations' feature
  axis with the transposed matrix's first axis: at entry `(r, n)` that is `∑ k, x[r, k] · Wᵀ[k, n]`, and
  `Wᵀ[k, n] = W[n, k]`. The weight matrix itself (the blocks scattered into a zero matrix, block rows and
  columns interleaved into `[4096, 4096]`) stays the closed stage it is.
-/
import proofs.«171957_j41128606826623_1_alg».proof.Proof.Gen.ReferenceIdeal.Read
import proofs.«171957_j41128606826623_1_alg».proof.Proof.Linear

noncomputable section

namespace Cert.ReferenceIdeal.RefValue

open Cert.ReferenceIdeal Cert.ReferenceIdeal.Gen Cert.ReferenceIdeal.Read
open Idealize.ShloMosaic Idealize.ShloMosaic.ValueIdx Cert.BlockSparseLinear

/-- The reference's result, as a function of its five arguments, is `x · Wᵀ + b` for `W` the dense weight
    stage: the transpose under the `dot_general` swaps the weight's two coordinates, and the two broadcasts of
    the bias read it at the column. -/
theorem result_eq (x0 : (⟨S8192x4096, .f32⟩ : BufTy).Contents (Elt Ideal)) (x1 : (⟨S8192x32x32, .f32⟩ : BufTy).Contents (Elt Ideal))
    (x2 : (⟨S4096, .f32⟩ : BufTy).Contents (Elt Ideal)) (x3 x4 : (⟨S8192, .i32⟩ : BufTy).Contents (Elt Ideal)) :
    val_main_v21 (F := Ideal) x0 x1 x2 x3 x4
      = linear x0 (val_main_v16 (F := Ideal) x1 x3 x4) (fun n => x2 (ix1 n)) := by
  funext i
  have el : ∀ k : Fin 4096, lidx_main_v18 i k = ix2 (i 0) k := fun k => funext fun a => Fin.ext (by
    match a with
    | ⟨0, _⟩ => rfl
    | ⟨1, _⟩ => rfl)
  have er : ∀ k : Fin 4096, idx_main_v17 (ridx_main_v18 i k) = ix2 (i 1) k := fun k => funext fun a => Fin.ext (by
    match a with
    | ⟨0, _⟩ => rfl
    | ⟨1, _⟩ => rfl)
  have eb : idx_main_v19 (idx_main_v20 i) = ix1 (i 1) := funext fun a => Fin.ext (by
    match a with
    | ⟨0, _⟩ => rfl)
  rw [val_main_v21_apply, val_main_v18_apply, val_main_v20_apply, val_main_v19_apply, eb]
  simp only [val_main_v17_apply, el, er]
  rfl

end Cert.ReferenceIdeal.RefValue

end
-- ==== Proof.Tile.lean ====
/-
  One grid point's arithmetic, at an entry. The body multiplies its `[1024, 4096]` block of activations with
  its `[512, 4096]` block of weight rows, contracting the two blocks' SECOND axes into a zero accumulator, and
  adds its `[1, 512]` block of the bias along the rows: entry `(p, q)` of the `[1024, 512]` tile is
  `(∑ k, a[p, k] · w[q, k]) + β[0, q]`.
-/
import proofs.«171957_j41128606826623_1_alg».proof.Proof.Gen.KernelIdeal.Skeleton
import proofs.«171957_j41128606826623_1_alg».proof.Proof.Linear
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx Cert.BlockSparseLinear

/-! The product's operand indices at an output entry `j` and a contraction position `q`: the left operand is read
    at (`j`'s row, `q`), the right operand at (`j`'s column, `q`). -/

theorem lhs_tile_0 (j : S1024x512.Idx) (q : dot_S1024x4096_S512x4096_S1024x512_1_1_0_0_n_n.contr.Idx) :
    (dot_S1024x4096_S512x4096_S1024x512_1_1_0_0_n_n.lhsIdx j q 0).val = (j 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_tile_1 (j : S1024x512.Idx) (q : dot_S1024x4096_S512x4096_S1024x512_1_1_0_0_n_n.contr.Idx) :
    (dot_S1024x4096_S512x4096_S1024x512_1_1_0_0_n_n.lhsIdx j q 1).val = (q ⟨0, by decide⟩).val :=
  dot_S1024x4096_S512x4096_S1024x512_1_1_0_0_n_n.lhsIdx_val_of_single rfl j q
theorem rhs_tile_0 (j : S1024x512.Idx) (q : dot_S1024x4096_S512x4096_S1024x512_1_1_0_0_n_n.contr.Idx) :
    (dot_S1024x4096_S512x4096_S1024x512_1_1_0_0_n_n.rhsIdx j q 0).val = (j 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_tile_1 (j : S1024x512.Idx) (q : dot_S1024x4096_S512x4096_S1024x512_1_1_0_0_n_n.contr.Idx) :
    (dot_S1024x4096_S512x4096_S1024x512_1_1_0_0_n_n.rhsIdx j q 1).val = (q ⟨0, by decide⟩).val :=
  dot_S1024x4096_S512x4096_S1024x512_1_1_0_0_n_n.rhsIdx_val_of_single rfl j q

/-- The block product into the zero accumulator, at entry `(p, q)`: the sum over the shared feature axis. -/
theorem product_apply (a : FVec Ideal S1024x4096 .bf16) (w : FVec Ideal S512x4096 .bf16) (p : Fin 1024) (q : Fin 512) :
    matmul dot_S1024x4096_S512x4096_S1024x512_1_1_0_0_n_n none a w (constant S1024x512 .f32 0x00000000#32) (ix2 p q)
      = ∑ k : Fin 4096, a (ix2 p k) * w (ix2 q k) := by
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun ax => Fin.ext (by
    match ax with
    | ⟨0, _⟩ => exact lhs_tile_0 _ _
    | ⟨1, _⟩ => exact (lhs_tile_1 _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun ax => Fin.ext (by
    match ax with
    | ⟨0, _⟩ => exact rhs_tile_0 _ _
    | ⟨1, _⟩ => exact (rhs_tile_1 _ _).trans hk)
  rw [el, er]

/-- The body's one stored value at entry `(p, q)` of the tile, from its three loaded blocks. -/
theorem tile_apply (a : Vec Ideal S1024x4096 .bf16) (w : Vec Ideal S512x4096 .bf16) (β : Vec Ideal S1x512 .f32)
    (p : Fin 1024) (q : Fin 512) :
    k0_pay1 (F := Ideal) a w β (ix2 p q) = (∑ k : Fin 4096, a (ix2 p k) * w (ix2 q k)) + β (ix2 (0 : Fin 1) q) := by
  unfold k0_pay1
  rw [addf_apply, shapeCast_self, shapeCast_self, shapeCast_self, broadcastTo_1b_ab_apply, product_apply]

/-- A TILE OF THE LAYER. If the three loaded blocks are pieces of whole arrays — the activation block rows
    `rows p` of `X`, the weight block rows `cols q` of `W`, each with all its features, and the bias block the
    entries `cols q` of `b` — then the body's value at `(p, q)` is the layer of those arrays at `(rows p, cols q)`:
    the sum over the feature axis is the same sum, term by term. -/
theorem tile_block (a : Vec Ideal S1024x4096 .bf16) (w : Vec Ideal S512x4096 .bf16) (β : Vec Ideal S1x512 .f32)
    (X : S8192x4096.Idx → EReal) (W : S4096x4096.Idx → EReal) (b : Fin 4096 → EReal)
    (rows : Fin 1024 → Fin 8192) (cols : Fin 512 → Fin 4096)
    (ha : ∀ p k, a (ix2 p k) = X (ix2 (rows p) k)) (hw : ∀ q k, w (ix2 q k) = W (ix2 (cols q) k))
    (hβ : ∀ q, β (ix2 (0 : Fin 1) q) = b (cols q))
    (j : S1024x512.Idx) :
    k0_pay1 (F := Ideal) a w β j = linear X W b (ix2 (rows (j 0)) (cols (j 1))) := by
  obtain ⟨p, q, rfl⟩ : ∃ (p : Fin 1024) (q : Fin 512), j = ix2 p q := ⟨j 0, j 1, eq_ix2 j⟩
  rw [tile_apply, linear_apply]
  simp only [ha, hw, hβ]

end Cert.KernelIdeal.Tile

end
-- ==== Proof.Operands.lean ====
/-
  What the kernel's three staged arrays hold when the grid starts, entry by entry. The host operations before the
  launch leave: the activations converted to the matrix unit's input format, which on the extended reals changes
  nothing; the dense weight matrix — the 32 × 32 blocks scattered at their (block row, block column) into a zero
  `[128, 128, 32, 32]` array, negative block indices wrapped by 128 first, then block rows and columns interleaved
  into `[4096, 4096]` — converted likewise; and the bias as one row `[1, 4096]`. The weight matrix is the SAME
  composition of host operations the reference performs on the same three arguments, so it is named here by the
  reference's own stage for it and never opened.
-/
import proofs.«171957_j41128606826623_1_alg».proof.Proof.Gen.KernelIdeal.Frame
import proofs.«171957_j41128606826623_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The staged activations are the argument: the conversion to the narrower format is the identity on the
    extended reals. -/
theorem activations (c : Dev nD) :
    (V m c main_v17 : S8192x4096.Idx → EReal) = m ((c : Thread nD τ).loc main_arg0) := by
  dsimp only [V, hostOps0]; after_results; rfl

theorem activations_at (c : Dev nD) (i : S8192x4096.Idx) :
    (V m c main_v17 : S8192x4096.Idx → EReal) i = m ((c : Thread nD τ).loc main_arg0) i :=
  congrFun (activations m c) i

set_option maxHeartbeats 2000000 in
/-- The weight matrix before its conversion is the dense `[4096, 4096]` matrix the reference builds from the same
    blocks and block coordinates: the same host operations on the same arguments. -/
theorem dense (c : Dev nD) :
    (V m c main_v16 : S4096x4096.Idx → EReal)
      = Cert.ReferenceIdeal.Read.val_main_v16 (F := Ideal) (m ((c : Thread nD τ).loc main_arg1))
          (m ((c : Thread nD τ).loc main_arg3)) (m ((c : Thread nD τ).loc main_arg4)) := by
  dsimp only [V, hostOps0]; after_results; rfl

/-- The staged weight matrix is that matrix converted to the narrower format: entry by entry, unchanged. (Only
    the last two host operations matter here; what the earlier ones leave is kept as it is.) -/
theorem converted_at (c : Dev nD) (i : S4096x4096.Idx) :
    (V m c main_v18 : S4096x4096.Idx → EReal) i = (V m c main_v16 : S4096x4096.Idx → EReal) i := by
  dsimp only [V, hostOps0]
  simp only [after_cons, after_nil]
  generalize (reshape main_v15 main_v16 _ _ _ _).result _ = R
  rw [reshape_result_ne]; rotate_left; decide
  rw [unary_result]
  rw [reshape_result_ne]; rotate_left; decide
  rw [unary_result_ne]; rotate_left; decide
  rfl

/-- The staged weight matrix, entry by entry, is the dense matrix. -/
theorem weights_at (c : Dev nD) (i : S4096x4096.Idx) :
    (V m c main_v18 : S4096x4096.Idx → EReal) i
      = Cert.ReferenceIdeal.Read.val_main_v16 (F := Ideal) (m ((c : Thread nD τ).loc main_arg1))
          (m ((c : Thread nD τ).loc main_arg3)) (m ((c : Thread nD τ).loc main_arg4)) i :=
  (converted_at m c i).trans (congrFun (dense m c) i)

/-- The staged bias row at column `n` is the bias at `n`. -/
theorem bias_at (c : Dev nD) (n : Fin 4096) :
    (V m c main_v19 : S1x4096.Idx → EReal) (ix2 (0 : Fin 1) n) = m ((c : Thread nD τ).loc main_arg2) (ix1 n) := by
  have e : (V m c main_v19 : S1x4096.Idx → EReal)
      = shapeCast S1x4096 (m ((c : Thread nD τ).loc main_arg2)) shapeCasts_S4096_S1x4096 := by
    dsimp only [V, hostOps0]; after_results; rfl
  rw [e]
  refine shapeCast_apply (s := S4096) (t := S1x4096) _ shapeCasts_S4096_S1x4096 (ix2 (0 : Fin 1) n) (ix1 n) ?_
  rw [Shape.rowMajor_val_one, Shape.rowMajor_val_two]
  show n.val = 0 * 4096 + n.val
  omega

end Cert.KernelIdeal.Operands

end
-- ==== Proof.Blocks.lean ====
/-
  One grid point's tile is a block of the layer. The grid is 8 × 8; point `(g₀, g₁)` stages rows `1024·g₀ …` of the
  activations (all 4096 features), rows `512·g₁ …` of the weight matrix (all features) and columns `512·g₁ …` of the
  bias row, and writes the `[1024, 512]` tile at block `(g₀, g₁)` of the `[8192, 4096]` output. Read through what
  the staged arrays hold (Proof/Operands.lean), the tile is that block of ONE function of the arguments: the linear
  layer with the dense weight matrix.
-/
import proofs.«171957_j41128606826623_1_alg».proof.Proof.Gen.KernelIdeal.Value
import proofs.«171957_j41128606826623_1_alg».proof.Proof.Linear
import proofs.«171957_j41128606826623_1_alg».proof.Proof.Tile
import proofs.«171957_j41128606826623_1_alg».proof.Proof.Operands

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.BlockSparseLinear

variable (m : (ℓ : Loc nD τ sig) → Buf (Elt Ideal) ℓ)

theorem origin : (![0, 0] : Fin 2 → Nat) = fun _ => 0 := funext fun a => by fin_cases a <;> rfl

/-- The four index maps, decided over the 64 grid points: the activations follow the output's block row and the
    weights and the bias its block column, each with its other block index 0; both output block indices are below 8. -/
theorem index_maps : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- The linear layer of the ARGUMENTS: the activations, the dense weight matrix built from the blocks and their
    coordinates, the bias. -/
def layer (c : Dev nD) : S8192x4096.Idx → EReal :=
  linear (m ((c : Thread nD τ).loc main_arg0))
    (Cert.ReferenceIdeal.Read.val_main_v16 (F := Ideal) (m ((c : Thread nD τ).loc main_arg1))
      (m ((c : Thread nD τ).loc main_arg3)) (m ((c : Thread nD τ).loc main_arg4)))
    (fun n => m ((c : Thread nD τ).loc main_arg2) (ix1 n))

/-- WHAT POINT `t` WRITES BACK, for ANY three arrays the staged buffers are known to hold entry by entry — `X` the
    activations, `W` the weight matrix, `b` the bias along the one row —: block `t` of the layer of those arrays.
    The block of activations at `t` is rows `1024·g₀ + p`, the block of weights rows `512·g₁ + q`, the bias block
    columns `512·g₁ + q`, for `(g₀, g₁)` the output's block index at `t`; the tile's entry `(p, q)` is the output's
    `(1024·g₀ + p, 512·g₁ + q)`. -/
theorem flushed_of (c : Dev nD) (t : Fin cfg0.N)
    (X : S8192x4096.Idx → EReal) (W : S4096x4096.Idx → EReal) (b : Fin 4096 → EReal)
    (hX : ∀ i, (V m c main_v17 : S8192x4096.Idx → EReal) i = X i)
    (hW : ∀ i, (V m c main_v18 : S4096x4096.Idx → EReal) i = W i)
    (hb : ∀ n, (V m c main_v19 : S1x4096.Idx → EReal) (ix2 (0 : Fin 1) n) = b n) :
    (dats m 0 c).flushed 3 t = ((cfg0.win 3).blk t).view.read (Elt Ideal) (linear X W b) := by
  rw [flushed3]
  unfold out0_3
  rw [View.canon_unit_zero origin]
  simp only [View.ld_unit_zero (S := S1024x4096) origin, View.ld_unit_zero (S := S512x4096) origin, View.ld_unit_zero (S := S1x512) origin]
  obtain ⟨e0, e1, e2, e3, e4, e5, b0, b1⟩ := index_maps t
  have hr : ∀ p : Fin 1024, win0_3.index t (0 : Fin 2) * 1024 + p.val < 8192 := fun p => by have := p.isLt; omega
  have hn : ∀ q : Fin 512, win0_3.index t (1 : Fin 2) * 512 + q.val < 4096 := fun q => by have := q.isLt; omega
  funext j
  refine (Tile.tile_block (iblk m c 0 t) (iblk m c 1 t) (iblk m c 2 t) X W b
    (fun p => ⟨_, hr p⟩) (fun q => ⟨_, hn q⟩) ?_ ?_ ?_ j).trans ?_
  · intro p k
    show V m c main_v17 (((cfg0.win 0).blk t).view.emb (ix2 p k)) = _
    refine (hX _).trans (congrArg X (funext fun a => Fin.ext ?_))
    match a with
    | ⟨0, _⟩ => show win0_0.index t (0 : Fin 2) * 1024 + 1 * p.val = win0_3.index t (0 : Fin 2) * 1024 + p.val; omega
    | ⟨1, _⟩ => show win0_0.index t (1 : Fin 2) * 4096 + 1 * k.val = k.val; omega
  · intro q k
    unfold iblk
    rw [View.read_apply, cast_eq]
    refine (hW _).trans (congrArg W (funext fun a => Fin.ext ?_))
    match a with
    | ⟨0, _⟩ => show win0_1.index t (0 : Fin 2) * 512 + 1 * q.val = win0_3.index t (1 : Fin 2) * 512 + q.val; omega
    | ⟨1, _⟩ => show win0_1.index t (1 : Fin 2) * 4096 + 1 * k.val = k.val; omega
  · intro q
    show V m c main_v19 (((cfg0.win 2).blk t).view.emb (ix2 (0 : Fin 1) q)) = _
    have hi : ((cfg0.win 2).blk t).view.emb (ix2 (0 : Fin 1) q) = ix2 (0 : Fin 1) (⟨_, hn q⟩ : Fin 4096) := funext fun a => Fin.ext (by
      match a with
      | ⟨0, _⟩ => show win0_2.index t (0 : Fin 2) * 1 + 1 * 0 = 0; omega
      | ⟨1, _⟩ => show win0_2.index t (1 : Fin 2) * 512 + 1 * q.val = win0_3.index t (1 : Fin 2) * 512 + q.val; omega)
    exact (congrArg (V m c main_v19 : S1x4096.Idx → EReal) hi).trans (hb _)
  · show linear X W b _ = linear X W b (((cfg0.win 3).blk t).view.emb j)
    refine congrArg (linear X W b) (funext fun a => Fin.ext ?_)
    match a with
    | ⟨0, _⟩ => show win0_3.index t (0 : Fin 2) * 1024 + (j 0).val = win0_3.index t (0 : Fin 2) * 1024 + 1 * (j 0).val; omega
    | ⟨1, _⟩ => show win0_3.index t (1 : Fin 2) * 512 + (j 1).val = win0_3.index t (1 : Fin 2) * 512 + 1 * (j 1).val; omega

/-- WHAT POINT `t` WRITES BACK is block `t` of the layer of the arguments (Proof/Operands.lean says what the staged
    buffers hold). -/
theorem flushed_eq (c : Dev nD) (t : Fin cfg0.N) :
    (dats m 0 c).flushed 3 t = ((cfg0.win 3).blk t).view.read (Elt Ideal) (layer m c) :=
  flushed_of m c t (m ((c : Thread nD τ).loc main_arg0))
    (Cert.ReferenceIdeal.Read.val_main_v16 (F := Ideal) (m ((c : Thread nD τ).loc main_arg1))
      (m ((c : Thread nD τ).loc main_arg3)) (m ((c : Thread nD τ).loc main_arg4)))
    (fun n => m ((c : Thread nD τ).loc main_arg2) (ix1 n))
    (Operands.activations_at m c) (Operands.weights_at m c) (Operands.bias_at m c)

end Cert.KernelIdeal.Blocks

end
-- ==== Proof.Cover.lean ====
/-
  From tiles to the whole output. Entry `(r, n)` of the `[8192, 4096]` output lies in the block of the grid point
  whose block index is `(r / 1024, n / 512)`, and every such block index is some point's: the 64 tiles cover the
  output. Each tile being a block of the layer, the output array ends holding the layer.
-/
import proofs.«171957_j41128606826623_1_alg».proof.Proof.Blocks

noncomputable section

namespace Cert.KernelIdeal.Whole

open Cert.KernelIdeal Cert.KernelIdeal.Gen Cert.KernelIdeal.Value Cert.KernelIdeal.Blocks
open Idealize.ShloMosaic Idealize.ShloMosaic.TcCoe Idealize.SL.Sem
open Idealize.ShloMosaic.Pipeline (Dat)
open Idealize.ShloMosaic.ValueIdx Cert.BlockSparseLinear

variable (m : (ℓ : Loc nD τ sig) → Buf (Elt Ideal) ℓ) (ρ : Dev nD → PrngReg)

/-- Every block of the 8 × 8 block grid of the output is some point's. -/
theorem every_block : ∀ (g0 : Fin 8) (g1 : Fin 8), ∃ t : Fin cfg0.N, win0_3.index t = ![g0.val, g1.val] :=
  (by decide +kernel : ∀ (g0 : Fin 8) (g1 : Fin 8), ∃ t : Fin grid0.N, win0_3.index t = ![g0.val, g1.val])

/-- An entry of the output is in point `t`'s block iff each coordinate is in the block's range on its axis. -/
theorem mem_block (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v20).slice (win0_3.rect t)).set ↔ _
  rw [View.set_slice_whole, Rect.mem_set_unit]
  exact Iff.rfl

/-- THE TILES COVER THE OUTPUT. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := every_block ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE OUTPUT ARRAY after the run is the layer of the arguments. -/
theorem final (c : Dev nD) : (dats m 0 c).arrAt 3 cfg0.N = layer m c :=
  (dats m 0 c).arrAt_eq_of_cover 3 (layer m c) (fun t _ => flushed_eq m c t) covered

/-- The kernel's run with its result named: the linear layer of the arguments. -/
theorem run : θ_run defs (onTc (τ := τ) (main (F := Ideal))) ⟨m, fun _ => 0, ρ⟩ fun r => ∀ c : Dev nD,
      r.2.mem ((c : Thread nD τ).loc main_v20) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.lean ====
/-
  Block-sparse linear layer: `y = x · Wᵀ + b`, the weight matrix `W : [4096, 4096]` given by 8192 blocks of
  32 × 32 and their (block row, block column) coordinates.

  Both programs first build the dense `W` on the host by the same operations (the blocks scattered into a zero
  `[128, 128, 32, 32]` array at their coordinates, the two block axes and the two in-block axes interleaved into
  `[4096, 4096]`), so `W` is one closed term of the arguments on both sides and is never opened. The reference
  then takes ONE `dot_general` of `x` with the transpose of `W` and adds the bias along the rows. The kernel
  converts `x` and `W` to the matrix unit's input format — the identity on the extended reals — and runs an
  8 × 8 grid: point `(g₀, g₁)` multiplies rows `1024·g₀ …` of `x` with rows `512·g₁ …` of `W`, contracting all 4096
  features into a zero accumulator, adds columns `512·g₁ …` of the bias, and writes the `[1024, 512]` tile.

  Entry `(r, n)` is `(∑ k, x[r, k] · W[n, k]) + b[n]` on both sides: in the kernel because the tile at `(g₀, g₁)`
  is block `(g₀, g₁)` of that function and the 64 tiles cover the output (Proof/Tile.lean, Proof/Blocks.lean,
  Proof/Cover.lean, over Proof/Operands.lean for what the grid stages); in the reference because the transpose under the product swaps
  `W`'s coordinates (Proof/RefLinear.lean). The same sum, term by term: no law of the extended reals beyond
  `0 + s = s` is used, and the precondition is never opened. The kernel's idealization rewrote nothing, so
  `preserves` is trivial; the three frames are the generated ones, the reference's its run with the result dropped.
-/
import proofs.«171957_j41128606826623_1_alg».proof.Defs
import proofs.«171957_j41128606826623_1_alg».proof.Proof.Gen.Kernel
import proofs.«171957_j41128606826623_1_alg».proof.Proof.Gen.Kernel.Skeleton
import proofs.«171957_j41128606826623_1_alg».proof.Proof.Gen.Kernel.Launch
import proofs.«171957_j41128606826623_1_alg».proof.Proof.Gen.Kernel.Points
import proofs.«171957_j41128606826623_1_alg».proof.Proof.Gen.Kernel.Frame
import proofs.«171957_j41128606826623_1_alg».proof.Proof.Gen.KernelIdeal
import proofs.«171957_j41128606826623_1_alg».proof.Proof.Gen.KernelIdeal.Skeleton
import proofs.«171957_j41128606826623_1_alg».proof.Proof.Gen.KernelIdeal.Launch
import proofs.«171957_j41128606826623_1_alg».proof.Proof.Gen.KernelIdeal.Points
import proofs.«171957_j41128606826623_1_alg».proof.Proof.Gen.KernelIdeal.Frame
import proofs.«171957_j41128606826623_1_alg».proof.Proof.Gen.ReferenceIdeal
import proofs.«171957_j41128606826623_1_alg».proof.Proof.Gen.Pre_finite_inputs
import proofs.«171957_j41128606826623_1_alg».proof.Proof.Gen.KernelIdeal.Value
import proofs.«171957_j41128606826623_1_alg».proof.Proof.Gen.ReferenceIdeal.Run
import proofs.«171957_j41128606826623_1_alg».proof.Proof.Gen.ReferenceIdeal.Read
import proofs.«171957_j41128606826623_1_alg».proof.Proof.Linear
import proofs.«171957_j41128606826623_1_alg».proof.Proof.RefLinear
import proofs.«171957_j41128606826623_1_alg».proof.Proof.Cover
import Idealize.ShloMosaic.Adequacy
import Idealize.ShloMosaic.Init

noncomputable section

namespace Cert.Proof

open Idealize.ShloMosaic Idealize.SL.Sem

/-- The printed kernel runs and leaves its arguments alone (the generated frame). -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the five arguments both programs end with the linear layer of the arguments: the
    kernel's output array (Proof/Cover.lean) and the reference's last stage (Proof/RefLinear.lean) are the same
    function of the same arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
